-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x4096 : Shape := ⟨3, ![8, 1024, 4096]⟩
abbrev S4096x1376 : Shape := ⟨2, ![4096, 1376]⟩
abbrev S32x1376 : Shape := ⟨2, ![32, 1376]⟩
abbrev S32x11008 : Shape := ⟨2, ![32, 11008]⟩
abbrev S11008 : Shape := ⟨1, ![11008]⟩
abbrev S_ : Shape := ⟨0, ![]⟩

class Facts : Prop where
  bcast_S_S8x1024x4096 : S_.BroadcastsInDim S8x1024x4096 (![] : Fin 0 → Fin S8x1024x4096.rank)
  reducesTo_S8x1024x4096_S_d0_1_2 : S8x1024x4096.ReducesTo [0, 1, 2] S_
  h_S_ : 0 < S_.numel
  bcast_S_S32x11008 : S_.BroadcastsInDim S32x11008 (![] : Fin 0 → Fin S32x11008.rank)
  reducesTo_S32x11008_S_d0_1 : S32x11008.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S8x1024x4096 .f32) (main_arg1 : IVec S4096x1376 32) (main_arg2 : IVec S32x1376 32) (main_arg3 : FVec F S32x11008 .f32) (main_arg4 : FVec F S11008 .f32) : IVec S_ 1 :=
  let main_v0 : FVec F S8x1024x4096 .f32 := Host.absf main_arg0
  let main_cst : FVec F S_ .f32 := constant S_ .f32 0x7F800000#32
  let main_v1 : FVec F S8x1024x4096 .f32 := broadcastInDim S8x1024x4096 ![] bcast_S_S8x1024x4096 main_cst
  let main_v2 : IVec S8x1024x4096 1 := cmpf .olt main_v0 main_v1
  let main_c : IVec S_ 1 := constantI S_ 1 1#1
  let main_v3 : IVec S_ 1 := (fun x v => Host.reduce IntOp.andi x v reducesTo_S8x1024x4096_S_d0_1_2 h_S_) main_v2 main_c
  let main_v4 : FVec F S32x11008 .f32 := Host.absf main_arg3
  let main_cst_0 : FVec F S_ .f32 := constant S_ .f32 0x7F800000#32
  let main_v5 : FVec F S32x11008 .f32 := broadcastInDim S32x11008 ![] bcast_S_S32x11008 main_cst_0
  let main_v6 : IVec S32x11008 1 := cmpf .olt main_v4 main_v5
  let main_c_1 : IVec S_ 1 := constantI S_ 1 1#1
  let main_v7 : IVec S_ 1 := (fun x v => Host.reduce IntOp.andi x v reducesTo_S32x11008_S_d0_1 h_S_) main_v6 main_c_1
  let main_v8 : IVec S_ 1 := andi main_v3 main_v7
  let main_v9 : FVec F S11008 .f32 := Host.absf main_arg4
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S8x1024x4096 : Shape := ⟨3, ![8, 1024, 4096]⟩
abbrev S4096x1376 : Shape := ⟨2, ![4096, 1376]⟩
abbrev S32x1376 : Shape := ⟨2, ![32, 1376]⟩
abbrev S32x11008 : Shape := ⟨2, ![32, 11008]⟩
abbrev S11008 : Shape := ⟨1, ![11008]⟩
abbrev S8 : Shape := ⟨1, ![8]⟩
abbrev S_ : Shape := ⟨0, ![]⟩
abbrev S4096x1376x1 : Shape := ⟨3, ![4096, 1376, 1]⟩
abbrev S1x1x8 : Shape := ⟨3, ![1, 1, 8]⟩
abbrev S4096x1376x8 : Shape := ⟨3, ![4096, 1376, 8]⟩
abbrev S4096x11008 : Shape := ⟨2, ![4096, 11008]⟩
abbrev S32x1376x1 : Shape := ⟨3, ![32, 1376, 1]⟩
abbrev S32x1376x8 : Shape := ⟨3, ![32, 1376, 8]⟩
abbrev S32x128x11008 : Shape := ⟨3, ![32, 128, 11008]⟩
abbrev S32x1x11008 : Shape := ⟨3, ![32, 1, 11008]⟩
abbrev S8192x4096 : Shape := ⟨2, ![8192, 4096]⟩
abbrev S1x11008 : Shape := ⟨2, ![1, 11008]⟩
abbrev S8192x11008 : Shape := ⟨2, ![8192, 11008]⟩
abbrev S8x1024x11008 : Shape := ⟨3, ![8, 1024, 11008]⟩
abbrev S1024x4096 : Shape := ⟨2, ![1024, 4096]⟩
abbrev S4096x256 : Shape := ⟨2, ![4096, 256]⟩
abbrev S1x256 : Shape := ⟨2, ![1, 256]⟩
abbrev S1024x256 : Shape := ⟨2, ![1024, 256]⟩

abbrev nBuf : Space → Nat
  | .hbm => 52
  | .vmem => 8
  | .smem => 0
  | _ => 0

abbrev bufTy : (tb : Table) → Fin (tcTables nBuf tb) → BufTy
  | .hbm, ⟨0, _⟩ => ⟨S8x1024x4096, .f32⟩
  | .hbm, ⟨1, _⟩ => ⟨S4096x1376, .i32⟩
  | .hbm, ⟨2, _⟩ => ⟨S32x1376, .i32⟩
  | .hbm, ⟨3, _⟩ => ⟨S32x11008, .f32⟩
  | .hbm, ⟨4, _⟩ => ⟨S11008, .f32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S4096x1376x1, .i32⟩
  | .hbm, ⟨13, _⟩ => ⟨S1x1x8, .i32⟩
  | .hbm, ⟨14, _⟩ => ⟨S4096x1376x8, .i32⟩
  | .hbm, ⟨15, _⟩ => ⟨S4096x1376x8, .i32⟩
  | .hbm, ⟨16, _⟩ => ⟨S4096x1376x8, .i32⟩
  | .hbm, ⟨17, _⟩ => ⟨S_, .i32⟩
  | .hbm, ⟨18, _⟩ => ⟨S4096x1376x8, .i32⟩
  | .hbm, ⟨19, _⟩ => ⟨S4096x1376x8, .i32⟩
  | .hbm, ⟨20, _⟩ => ⟨S4096x11008, .i32⟩
  | .hbm, ⟨21, _⟩ => ⟨S8, .i32⟩
  | .hbm, ⟨22, _⟩ => ⟨S_, .i32⟩
  | .hbm, ⟨23, _⟩ => ⟨S8, .i32⟩
  | .hbm, ⟨24, _⟩ => ⟨S8, .i32⟩
  | .hbm, ⟨25, _⟩ => ⟨S_, .i32⟩
  | .hbm, ⟨26, _⟩ => ⟨S8, .i32⟩
  | .hbm, ⟨27, _⟩ => ⟨S8, .i32⟩
  | .hbm, ⟨28, _⟩ => ⟨S32x1376x1, .i32⟩
  | .hbm, ⟨29, _⟩ => ⟨S1x1x8, .i32⟩
  | .hbm, ⟨30, _⟩ => ⟨S32x1376x8, .i32⟩
  | .hbm, ⟨31, _⟩ => ⟨S32x1376x8, .i32⟩
  | .hbm, ⟨32, _⟩ => ⟨S32x1376x8, .i32⟩
  | .hbm, ⟨33, _⟩ => ⟨S_, .i32⟩
  | .hbm, ⟨34, _⟩ => ⟨S32x1376x8, .i32⟩
  | .hbm, ⟨35, _⟩ => ⟨S32x1376x8, .i32⟩
  | .hbm, ⟨36, _⟩ => ⟨S32x11008, .i32⟩
  | .hbm, ⟨37, _⟩ => ⟨S32x128x11008, .i32⟩
  | .hbm, ⟨38, _⟩ => ⟨S32x1x11008, .i32⟩
  | .hbm, ⟨39, _⟩ => ⟨S32x128x11008, .i32⟩
  | .hbm, ⟨40, _⟩ => ⟨S32x128x11008, .i32⟩
  | .hbm, ⟨41, _⟩ => ⟨S32x128x11008, .f32⟩
  | .hbm, ⟨42, _⟩ => ⟨S32x1x11008, .f32⟩
  | .hbm, ⟨43, _⟩ => ⟨S32x128x11008, .f32⟩
  | .hbm, ⟨44, _⟩ => ⟨S32x128x11008, .f32⟩
  | .hbm, ⟨45, _⟩ => ⟨S4096x11008, .f32⟩
  | .hbm, ⟨46, _⟩ => ⟨S4096x11008, .bf16⟩
  | .hbm, ⟨47, _⟩ => ⟨S8192x4096, .f32⟩
  | .hbm, ⟨48, _⟩ => ⟨S8192x4096, .bf16⟩
  | .hbm, ⟨49, _⟩ => ⟨S1x11008, .f32⟩
  | .hbm, ⟨50, _⟩ => ⟨S8192x11008, .f32⟩
  | .hbm, ⟨51, _⟩ => ⟨S8x1024x11008, .f32⟩
  | .local _ .vmem, ⟨0, _⟩ => ⟨S1024x4096, .bf16⟩
  | .local _ .vmem, ⟨1, _⟩ => ⟨S1024x4096, .bf16⟩
  | .local _ .vmem, ⟨2, _⟩ => ⟨S4096x256, .bf16⟩
  | .local _ .vmem, ⟨3, _⟩ => ⟨S4096x256, .bf16⟩
  | .local _ .vmem, ⟨4, _⟩ => ⟨S1x256, .f32⟩
  | .local _ .vmem, ⟨5, _⟩ => ⟨S1x256, .f32⟩
  | .local _ .vmem, ⟨6, _⟩ => ⟨S1024x256, .f32⟩
  | .local _ .vmem, ⟨7, _⟩ => ⟨S1024x256, .f32⟩
  | _, _ => ⟨S8x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_v2 : Ref sig .tc := ⟨.hbm, 8, rfl⟩
abbrev main_call0_c_0 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_c_1 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_c_2 : Ref sig .tc := ⟨.hbm, 22, rfl⟩
abbrev main_call0_v14 : Ref sig .tc := ⟨.hbm, 23, rfl⟩
abbrev main_call0_v15 : Ref sig .tc := ⟨.hbm, 24, rfl⟩
abbrev main_call0_c_3 : Ref sig .tc := ⟨.hbm, 25, rfl⟩
abbrev main_call0_v16 : Ref sig .tc := ⟨.hbm, 26, rfl⟩
abbrev main_call0_v17 : Ref sig .tc := ⟨.hbm, 27, rfl⟩
abbrev main_call0_v18 : Ref sig .tc := ⟨.hbm, 28, rfl⟩
abbrev main_call0_v19 : Ref sig .tc := ⟨.hbm, 29, rfl⟩
abbrev main_call0_v20 : Ref sig .tc := ⟨.hbm, 30, rfl⟩
abbrev main_call0_v21 : Ref sig .tc := ⟨.hbm, 31, rfl⟩
abbrev main_call0_v22 : Ref sig .tc := ⟨.hbm, 32, rfl⟩
abbrev main_call0_c_4 : Ref sig .tc := ⟨.hbm, 33, rfl⟩
abbrev main_call0_v23 : Ref sig .tc := ⟨.hbm, 34, rfl⟩
abbrev main_call0_v24 : Ref sig .tc := ⟨.hbm, 35, rfl⟩
abbrev main_call0_v25 : Ref sig .tc := ⟨.hbm, 36, rfl⟩
abbrev main_call0_v26 : Ref sig .tc := ⟨.hbm, 37, rfl⟩
abbrev main_call0_v27 : Ref sig .tc := ⟨.hbm, 38, rfl⟩
abbrev main_call0_v28 : Ref sig .tc := ⟨.hbm, 39, rfl⟩
abbrev main_call0_v29 : Ref sig .tc := ⟨.hbm, 40, rfl⟩
abbrev main_call0_v30 : Ref sig .tc := ⟨.hbm, 41, rfl⟩
abbrev main_call0_v31 : Ref sig .tc := ⟨.hbm, 42, rfl⟩
abbrev main_call0_v32 : Ref sig .tc := ⟨.hbm, 43, rfl⟩
abbrev main_call0_v33 : Ref sig .tc := ⟨.hbm, 44, rfl⟩
abbrev main_call0_v34 : Ref sig .tc := ⟨.hbm, 45, rfl⟩
abbrev main_call0_v35 : Ref sig .tc := ⟨.hbm, 46, rfl⟩
abbrev main_call0_v36 : Ref sig .tc := ⟨.hbm, 47, rfl⟩
abbrev main_call0_v37 : Ref sig .tc := ⟨.hbm, 48, rfl⟩
abbrev main_call0_v38 : Ref sig .tc := ⟨.hbm, 49, rfl⟩
abbrev main_call0_v39 : Ref sig .tc := ⟨.hbm, 50, rfl⟩
abbrev main_v0 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S8 : S_.BroadcastsInDim S8 (![] : Fin 0 → Fin S8.rank)
  bcast_S4096x1376_S4096x1376x1_0_1 : S4096x1376.BroadcastsInDim S4096x1376x1 (![0, 1] : Fin 2 → Fin S4096x1376x1.rank)
  bcast_S8_S1x1x8_2 : S8.BroadcastsInDim S1x1x8 (![2] : Fin 1 → Fin S1x1x8.rank)
  bcast_S4096x1376x1_S4096x1376x8_0_1_2 : S4096x1376x1.BroadcastsInDim S4096x1376x8 (![0, 1, 2] : Fin 3 → Fin S4096x1376x8.rank)
  bcast_S1x1x8_S4096x1376x8_0_1_2 : S1x1x8.BroadcastsInDim S4096x1376x8 (![0, 1, 2] : Fin 3 → Fin S4096x1376x8.rank)
  bcast_S_S4096x1376x8 : S_.BroadcastsInDim S4096x1376x8 (![] : Fin 0 → Fin S4096x1376x8.rank)
  shapeCasts_S4096x1376x8_S4096x11008 : S4096x1376x8.ShapeCasts S4096x11008
  bcast_S32x1376_S32x1376x1_0_1 : S32x1376.BroadcastsInDim S32x1376x1 (![0, 1] : Fin 2 → Fin S32x1376x1.rank)
  bcast_S32x1376x1_S32x1376x8_0_1_2 : S32x1376x1.BroadcastsInDim S32x1376x8 (![0, 1, 2] : Fin 3 → Fin S32x1376x8.rank)
  bcast_S1x1x8_S32x1376x8_0_1_2 : S1x1x8.BroadcastsInDim S32x1376x8 (![0, 1, 2] : Fin 3 → Fin S32x1376x8.rank)
  bcast_S_S32x1376x8 : S_.BroadcastsInDim S32x1376x8 (![] : Fin 0 → Fin S32x1376x8.rank)
  shapeCasts_S32x1376x8_S32x11008 : S32x1376x8.ShapeCasts S32x11008
  shapeCasts_S4096x11008_S32x128x11008 : S4096x11008.ShapeCasts S32x128x11008
  bcast_S32x11008_S32x1x11008_0_2 : S32x11008.BroadcastsInDim S32x1x11008 (![0, 2] : Fin 2 → Fin S32x1x11008.rank)
  bcast_S32x1x11008_S32x128x11008_0_1_2 : S32x1x11008.BroadcastsInDim S32x128x11008 (![0, 1, 2] : Fin 3 → Fin S32x128x11008.rank)
  shapeCasts_S32x128x11008_S4096x11008 : S32x128x11008.ShapeCasts S4096x11008
  bitsLt_bf16_f32 : FTy.bits .bf16 < FTy.bits .f32
  shapeCasts_S8x1024x4096_S8192x4096 : S8x1024x4096.ShapeCasts S8192x4096
  shapeCasts_S11008_S1x11008 : S11008.ShapeCasts S1x11008
  shapeCasts_S8192x11008_S8x1024x11008 : S8192x11008.ShapeCasts S8x1024x11008
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  dot_S1024x4096_S4096x256_S1024x256_1_0_0_1_n_n_wf : DotDims.WF S1024x4096 S4096x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x11008.size a
  hwx0_1 : ∀ i : grid0.Coords, EltTy.bits .bf16 = 32 ∨ (Rect.block (s := S4096x11008) S4096x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x11008.size a
  hwx0_2 : ∀ i : grid0.Coords, EltTy.bits .f32 = 32 ∨ (Rect.block (s := S1x11008) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x11008.size a
  hwx0_3 : ∀ i : grid0.Coords, EltTy.bits .f32 = 32 ∨ (Rect.block (s := S8192x11008) S1024x256.size (cc0_transform_3 i) (hinb0_3 i)).WholeWords (EltTy.packing .f32)

variable [Facts₀]

def dot_S1024x4096_S4096x256_S1024x256_1_0_0_1_n_n : DotDims S1024x4096 S4096x256 S1024x256 where
  lhsContracting := [1]
  rhsContracting := [0]
  lhsNonContracting := [0]
  rhsNonContracting := [1]
  lhsBatch := []
  rhsBatch := []
  wf := dot_S1024x4096_S4096x256_S1024x256_1_0_0_1_n_n_wf

abbrev win0_0 : Pipeline.Window sig grid0 :=
  Pipeline.Window.ofSpec (Memref.whole main_call0_v37) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v35) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v38) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v39) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x1024x4096 : Shape := ⟨3, ![8, 1024, 4096]⟩
abbrev S4096x1376 : Shape := ⟨2, ![4096, 1376]⟩
abbrev S32x1376 : Shape := ⟨2, ![32, 1376]⟩
abbrev S32x11008 : Shape := ⟨2, ![32, 11008]⟩
abbrev S11008 : Shape := ⟨1, ![11008]⟩
abbrev S8 : Shape := ⟨1, ![8]⟩
abbrev S_ : Shape := ⟨0, ![]⟩
abbrev S4096x1376x1 : Shape := ⟨3, ![4096, 1376, 1]⟩
abbrev S1x1x8 : Shape := ⟨3, ![1, 1, 8]⟩
abbrev S4096x1376x8 : Shape := ⟨3, ![4096, 1376, 8]⟩
abbrev S4096x11008 : Shape := ⟨2, ![4096, 11008]⟩
abbrev S32x1376x1 : Shape := ⟨3, ![32, 1376, 1]⟩
abbrev S32x1376x8 : Shape := ⟨3, ![32, 1376, 8]⟩
abbrev S32x128x11008 : Shape := ⟨3, ![32, 128, 11008]⟩
abbrev S32x1x11008 : Shape := ⟨3, ![32, 1, 11008]⟩
abbrev S8192x4096 : Shape := ⟨2, ![8192, 4096]⟩
abbrev S8192x11008 : Shape := ⟨2, ![8192, 11008]⟩
abbrev S1x11008 : Shape := ⟨2, ![1, 11008]⟩
abbrev S8x1024x11008 : Shape := ⟨3, ![8, 1024, 11008]⟩

abbrev nBuf : Space → Nat
  | .hbm => 52
  | .vmem => 0
  | .smem => 0
  | _ => 0

abbrev bufTy : (tb : Table) → Fin (tcTables nBuf tb) → BufTy
  | .hbm, ⟨0, _⟩ => ⟨S8x1024x4096, .f32⟩
  | .hbm, ⟨1, _⟩ => ⟨S4096x1376, .i32⟩
  | .hbm, ⟨2, _⟩ => ⟨S32x1376, .i32⟩
  | .hbm, ⟨3, _⟩ => ⟨S32x11008, .f32⟩
  | .hbm, ⟨4, _⟩ => ⟨S11008, .f32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S4096x1376x1, .i32⟩
  | .hbm, ⟨13, _⟩ => ⟨S1x1x8, .i32⟩
  | .hbm, ⟨14, _⟩ => ⟨S4096x1376x8, .i32⟩
  | .hbm, ⟨15, _⟩ => ⟨S4096x1376x8, .i32⟩
  | .hbm, ⟨16, _⟩ => ⟨S4096x1376x8, .i32⟩
  | .hbm, ⟨17, _⟩ => ⟨S_, .i32⟩
  | .hbm, ⟨18, _⟩ => ⟨S4096x1376x8, .i32⟩
  | .hbm, ⟨19, _⟩ => ⟨S4096x1376x8, .i32⟩
  | .hbm, ⟨20, _⟩ => ⟨S4096x11008, .i32⟩
  | .hbm, ⟨21, _⟩ => ⟨S8, .i32⟩
  | .hbm, ⟨22, _⟩ => ⟨S_, .i32⟩
  | .hbm, ⟨23, _⟩ => ⟨S8, .i32⟩
  | .hbm, ⟨24, _⟩ => ⟨S8, .i32⟩
  | .hbm, ⟨25, _⟩ => ⟨S_, .i32⟩
  | .hbm, ⟨26, _⟩ => ⟨S8, .i32⟩
  | .hbm, ⟨27, _⟩ => ⟨S8, .i32⟩
  | .hbm, ⟨28, _⟩ => ⟨S32x1376x1, .i32⟩
  | .hbm, ⟨29, _⟩ => ⟨S1x1x8, .i32⟩
  | .hbm, ⟨30, _⟩ => ⟨S32x1376x8, .i32⟩
  | .hbm, ⟨31, _⟩ => ⟨S32x1376x8, .i32⟩
  | .hbm, ⟨32, _⟩ => ⟨S32x1376x8, .i32⟩
  | .hbm, ⟨33, _⟩ => ⟨S_, .i32⟩
  | .hbm, ⟨34, _⟩ => ⟨S32x1376x8, .i32⟩
  | .hbm, ⟨35, _⟩ => ⟨S32x1376x8, .i32⟩
  | .hbm, ⟨36, _⟩ => ⟨S32x11008, .i32⟩
  | .hbm, ⟨37, _⟩ => ⟨S32x128x11008, .i32⟩
  | .hbm, ⟨38, _⟩ => ⟨S32x1x11008, .i32⟩
  | .hbm, ⟨39, _⟩ => ⟨S32x128x11008, .i32⟩
  | .hbm, ⟨40, _⟩ => ⟨S32x128x11008, .i32⟩
  | .hbm, ⟨41, _⟩ => ⟨S32x128x11008, .f32⟩
  | .hbm, ⟨42, _⟩ => ⟨S32x1x11008, .f32⟩
  | .hbm, ⟨43, _⟩ => ⟨S32x128x11008, .f32⟩
  | .hbm, ⟨44, _⟩ => ⟨S32x128x11008, .f32⟩
  | .hbm, ⟨45, _⟩ => ⟨S4096x11008, .f32⟩
  | .hbm, ⟨46, _⟩ => ⟨S8192x4096, .f32⟩
  | .hbm, ⟨47, _⟩ => ⟨S8192x11008, .f32⟩
  | .hbm, ⟨48, _⟩ => ⟨S1x11008, .f32⟩
  | .hbm, ⟨49, _⟩ => ⟨S8192x11008, .f32⟩
  | .hbm, ⟨50, _⟩ => ⟨S8192x11008, .f32⟩
  | .hbm, ⟨51, _⟩ => ⟨S8x1024x11008, .f32⟩
  | _, _ => ⟨S8x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S4096x1376_S4096x1376x1_0_1 : S4096x1376.BroadcastsInDim S4096x1376x1 (![0, 1] : Fin 2 → Fin S4096x1376x1.rank)
  bcast_S8_S1x1x8_2 : S8.BroadcastsInDim S1x1x8 (![2] : Fin 1 → Fin S1x1x8.rank)
  bcast_S4096x1376x1_S4096x1376x8_0_1_2 : S4096x1376x1.BroadcastsInDim S4096x1376x8 (![0, 1, 2] : Fin 3 → Fin S4096x1376x8.rank)
  bcast_S1x1x8_S4096x1376x8_0_1_2 : S1x1x8.BroadcastsInDim S4096x1376x8 (![0, 1, 2] : Fin 3 → Fin S4096x1376x8.rank)
  bcast_S_S4096x1376x8 : S_.BroadcastsInDim S4096x1376x8 (![] : Fin 0 → Fin S4096x1376x8.rank)
  shapeCasts_S4096x1376x8_S4096x11008 : S4096x1376x8.ShapeCasts S4096x11008
  bcast_S32x1376_S32x1376x1_0_1 : S32x1376.BroadcastsInDim S32x1376x1 (![0, 1] : Fin 2 → Fin S32x1376x1.rank)
  bcast_S32x1376x1_S32x1376x8_0_1_2 : S32x1376x1.BroadcastsInDim S32x1376x8 (![0, 1, 2] : Fin 3 → Fin S32x1376x8.rank)
  bcast_S1x1x8_S32x1376x8_0_1_2 : S1x1x8.BroadcastsInDim S32x1376x8 (![0, 1, 2] : Fin 3 → Fin S32x1376x8.rank)
  bcast_S_S32x1376x8 : S_.BroadcastsInDim S32x1376x8 (![] : Fin 0 → Fin S32x1376x8.rank)
  shapeCasts_S32x1376x8_S32x11008 : S32x1376x8.ShapeCasts S32x11008
  shapeCasts_S4096x11008_S32x128x11008 : S4096x11008.ShapeCasts S32x128x11008
  bcast_S32x11008_S32x1x11008_0_2 : S32x11008.BroadcastsInDim S32x1x11008 (![0, 2] : Fin 2 → Fin S32x1x11008.rank)
  bcast_S32x1x11008_S32x128x11008_0_1_2 : S32x1x11008.BroadcastsInDim S32x128x11008 (![0, 1, 2] : Fin 3 → Fin S32x128x11008.rank)
  shapeCasts_S32x128x11008_S4096x11008 : S32x128x11008.ShapeCasts S4096x11008
  shapeCasts_S8x1024x4096_S8192x4096 : S8x1024x4096.ShapeCasts S8192x4096
  bcast_S11008_S1x11008_1 : S11008.BroadcastsInDim S1x11008 (![1] : Fin 1 → Fin S1x11008.rank)
  bcast_S1x11008_S8192x11008_0_1 : S1x11008.BroadcastsInDim S8192x11008 (![0, 1] : Fin 2 → Fin S8192x11008.rank)
  shapeCasts_S8192x11008_S8x1024x11008 : S8192x11008.ShapeCasts S8x1024x11008
  dot_S8192x4096_S4096x11008_S8192x11008_1_0_0_1_n_n_wf : DotDims.WF S8192x4096 S4096x11008 S8192x11008 [1] [0] [0] [1] [] []

variable [Facts₀]

def dot_S8192x4096_S4096x11008_S8192x11008_1_0_0_1_n_n : DotDims S8192x4096 S4096x11008 S8192x11008 where
  lhsContracting := [1]
  rhsContracting := [0]
  lhsNonContracting := [0]
  rhsNonContracting := [1]
  lhsBatch := []
  rhsBatch := []
  wf := dot_S8192x4096_S4096x11008_S8192x11008_1_0_0_1_n_n_wf

class Facts : Prop extends Facts₀ where

variable [Facts]
-- ==== Proof.BlockProduct.lean ====
/-
  One grid point's arithmetic, read at an index. The body multiplies a 1024 × 4096 block of rows by a 4096 × 256
  block of columns on the matrix unit, into a zero accumulator, and adds the 1 × 256 bias block broadcast over the
  rows. At the ideal instance the matrix unit's result at `(p, q)` is the plain sum over the contracted axis of
  `lhs (p, k) · rhs (k, q)` (the zero accumulator adds nothing), and the broadcast row reads its one row at `q`.
-/
import proofs.«423215_j66546223284349_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.WQLinear

open Idealize.ShloMosaic Idealize.ShloMosaic.ValueIdx Cert.KernelIdeal Cert.KernelIdeal.Gen

/-! ## The contraction's index maps, axis by axis -/

/-- The left operand is read in the output's row. -/
theorem lhs_row (j : S1024x256.Idx) (q : dot_S1024x4096_S4096x256_S1024x256_1_0_0_1_n_n.contr.Idx) :
    (dot_S1024x4096_S4096x256_S1024x256_1_0_0_1_n_n.lhsIdx j q 0).val = (j 0).val := by
  unfold DotDims.lhsIdx
  rw [dif_neg (show ¬(0 : Fin S1024x4096.rank) ∈ dot_S1024x4096_S4096x256_S1024x256_1_0_0_1_n_n.lhsBatch by decide), dif_pos (show (0 : Fin S1024x4096.rank) ∈ dot_S1024x4096_S4096x256_S1024x256_1_0_0_1_n_n.lhsNonContracting by decide)]
  rfl
/-- and at the contracted position; -/
theorem lhs_contr (j : S1024x256.Idx) (q : dot_S1024x4096_S4096x256_S1024x256_1_0_0_1_n_n.contr.Idx) :
    (dot_S1024x4096_S4096x256_S1024x256_1_0_0_1_n_n.lhsIdx j q 1).val = (q ⟨0, by decide⟩).val :=
  dot_S1024x4096_S4096x256_S1024x256_1_0_0_1_n_n.lhsIdx_val_of_single rfl j q
/-- the right operand at the contracted position -/
theorem rhs_contr (j : S1024x256.Idx) (q : dot_S1024x4096_S4096x256_S1024x256_1_0_0_1_n_n.contr.Idx) :
    (dot_S1024x4096_S4096x256_S1024x256_1_0_0_1_n_n.rhsIdx j q 0).val = (q ⟨0, by decide⟩).val :=
  dot_S1024x4096_S4096x256_S1024x256_1_0_0_1_n_n.rhsIdx_val_of_single rfl j q
/-- and in the output's column. -/
theorem rhs_col (j : S1024x256.Idx) (q : dot_S1024x4096_S4096x256_S1024x256_1_0_0_1_n_n.contr.Idx) :
    (dot_S1024x4096_S4096x256_S1024x256_1_0_0_1_n_n.rhsIdx j q 1).val = (j 1).val := by
  unfold DotDims.rhsIdx
  rw [dif_neg (show ¬(1 : Fin S4096x256.rank) ∈ dot_S1024x4096_S4096x256_S1024x256_1_0_0_1_n_n.rhsBatch by decide), dif_pos (show (1 : Fin S4096x256.rank) ∈ dot_S1024x4096_S4096x256_S1024x256_1_0_0_1_n_n.rhsNonContracting by decide)]
  rfl

/-! ## The block product and the payload -/

/-- The matrix unit's product into a zero accumulator, at `(p, q)`: `Σ_{k < 4096} lhs (p, k) · rhs (k, q)`. -/
theorem blockMatmul_apply (x0 : FVec Ideal S1024x4096 .bf16) (x1 : FVec Ideal S4096x256 .bf16) (p : Fin 1024) (q : Fin 256) :
    matmul dot_S1024x4096_S4096x256_S1024x256_1_0_0_1_n_n none x0 x1 (constant (F := Ideal) S1024x256 .f32 0x00000000#32) (ix2 p q)
      = ∑ k : Fin 4096, x0 (ix2 p k) * x1 (ix2 k q) := by
  refine (Ideal.matmul_constant_zero_apply dot_S1024x4096_S4096x256_S1024x256_1_0_0_1_n_n none x0 x1 (ix2 p q)).trans ?_
  rw [← Equiv.sum_comp (contrEquiv1 dot_S1024x4096_S4096x256_S1024x256_1_0_0_1_n_n 4096 rfl rfl).symm]
  refine Finset.sum_congr rfl fun k _ => ?_
  have hk := contrEquiv1_symm_val dot_S1024x4096_S4096x256_S1024x256_1_0_0_1_n_n 4096 rfl rfl k
  have el : dot_S1024x4096_S4096x256_S1024x256_1_0_0_1_n_n.lhsIdx (ix2 p q) ((contrEquiv1 dot_S1024x4096_S4096x256_S1024x256_1_0_0_1_n_n 4096 rfl rfl).symm k) = ix2 p k := funext fun a => Fin.ext (by
    match a with
    | ⟨0, _⟩ => exact lhs_row _ _
    | ⟨1, _⟩ => exact (lhs_contr _ _).trans hk)
  have er : dot_S1024x4096_S4096x256_S1024x256_1_0_0_1_n_n.rhsIdx (ix2 p q) ((contrEquiv1 dot_S1024x4096_S4096x256_S1024x256_1_0_0_1_n_n 4096 rfl rfl).symm k) = ix2 k q := funext fun a => Fin.ext (by
    match a with
    | ⟨0, _⟩ => exact (rhs_contr _ _).trans hk
    | ⟨1, _⟩ => exact rhs_col _ _)
  rw [el, er]

/-- The value the body stores, as one expression of its three loaded blocks: the self-casts of the loads drop. -/
theorem pay_eq (x0 : FVec Ideal S1024x4096 .bf16) (x1 : FVec Ideal S4096x256 .bf16) (x2 : FVec Ideal S1x256 .f32) :
    k0_pay1 (F := Ideal) x0 x1 x2
      = addf (matmul dot_S1024x4096_S4096x256_S1024x256_1_0_0_1_n_n none x0 x1 (constant (F := Ideal) S1024x256 .f32 0x00000000#32))
          (broadcastTo S1024x256 x2 broadcasts_S1x256_S1024x256) := by
  unfold k0_pay1
  simp only [shapeCast_self]

/-- The stored value at `(p, q)`: the block product there plus the bias block's entry `q`. -/
theorem pay_apply (x0 : FVec Ideal S1024x4096 .bf16) (x1 : FVec Ideal S4096x256 .bf16) (x2 : FVec Ideal S1x256 .f32)
    (p : Fin 1024) (q : Fin 256) :
    k0_pay1 (F := Ideal) x0 x1 x2 (ix2 p q)
      = (∑ k : Fin 4096, x0 (ix2 p k) * x1 (ix2 k q)) + x2 (ix2 (0 : Fin 1) q) := by
  rw [pay_eq]
  show matmul dot_S1024x4096_S4096x256_S1024x256_1_0_0_1_n_n none x0 x1 (constant (F := Ideal) S1024x256 .f32 0x00000000#32) (ix2 p q)
      + broadcastTo S1024x256 x2 broadcasts_S1x256_S1024x256 (ix2 p q) = _
  rw [blockMatmul_apply x0 x1 p q, broadcastTo_1b_ab_apply x2 broadcasts_S1x256_S1024x256 p q]

end Cert.WQLinear

end
-- ==== Proof.Affine.lean ====
/-
  What both programs compute on the flattened rows: a matrix product followed by one bias row.
  For `X` of 8192 rows by 4096, `W` of 4096 by 11008 and a single row `b` of 11008 entries,
  `affine X W b` at row `r`, column `n` is `(Σ_{k < 4096} X (r, k) · W (k, n)) + b (0, n)` on the extended reals:
  one sum over the whole contracted axis, then the bias. Neither side regroups that sum, so no law of the
  extended reals beyond reading both sides at an index is needed to join them.
-/
import Idealize.ShloMosaic.PureOps.Ideal
import Idealize.ShloMosaic.Lib.ValueIdx

noncomputable section

namespace Cert.WQLinear

open Idealize.ShloMosaic Idealize.ShloMosaic.ValueIdx

/-- Entry `(r, n)` of `X · W + b`: the sum over the 4096 contracted positions of `X (r, k) · W (k, n)`, plus the
    bias row's entry `n`. The index's coordinates are taken as numbers below the literal extents. -/
def affine (X : (⟨2, ![8192, 4096]⟩ : Shape).Idx → EReal) (W : (⟨2, ![4096, 11008]⟩ : Shape).Idx → EReal)
    (b : (⟨2, ![1, 11008]⟩ : Shape).Idx → EReal) : (⟨2, ![8192, 11008]⟩ : Shape).Idx → EReal :=
  fun j => (∑ k : Fin 4096, X (ix2 (⟨(j 0).val, (j 0).isLt⟩ : Fin 8192) k) * W (ix2 k (⟨(j 1).val, (j 1).isLt⟩ : Fin 11008)))
    + b (ix2 (0 : Fin 1) (⟨(j 1).val, (j 1).isLt⟩ : Fin 11008))

/-- The same at an index given by its two coordinates. -/
theorem affine_ix2 (X : (⟨2, ![8192, 4096]⟩ : Shape).Idx → EReal) (W : (⟨2, ![4096, 11008]⟩ : Shape).Idx → EReal)
    (b : (⟨2, ![1, 11008]⟩ : Shape).Idx → EReal) (r : Fin 8192) (n : Fin 11008) :
    affine X W b (ix2 r n) = (∑ k : Fin 4096, X (ix2 r k) * W (ix2 k n)) + b (ix2 (0 : Fin 1) n) := rfl

end Cert.WQLinear

end
-- ==== Proof.BlockAffine.lean ====
/-
  A block of the product is a block of `affine`. If a 1024 × 4096 block holds rows `i·1024 …` of `X`, a 4096 × 256
  block holds columns `j·256 …` of `W`, and a 1 × 256 block holds entries `j·256 …` of the bias row, then what the
  body stores at `(p, q)` is `affine X W b` at row `i·1024 + p`, column `j·256 + q`: both are the same sum over the
  whole contracted axis plus the same bias entry. Stated over plain arrays and numbers, with no grid in sight.
-/
import proofs.«423215_j66546223284349_3_alg».proof.Proof.BlockProduct
import proofs.«423215_j66546223284349_3_alg».proof.Proof.Affine

noncomputable section

namespace Cert.WQLinear

open Idealize.ShloMosaic Idealize.ShloMosaic.ValueIdx Cert.KernelIdeal Cert.KernelIdeal.Gen

/-- Row `p` of row-block `i` (of 8) is a row of the 8192. -/
theorem row_lt (i : Nat) (hi : i ≤ 7) (p : Fin 1024) : i * 1024 + p.val < 8192 := by
  have := p.isLt; omega
/-- Column `q` of column-block `j` (of 43) is a column of the 11008. -/
theorem col_lt (j : Nat) (hj : j ≤ 42) (q : Fin 256) : j * 256 + q.val < 11008 := by
  have := q.isLt; omega

/-- The stored value at `(p, q)` of block `(i, j)` is `affine` at `(i·1024 + p, j·256 + q)`. -/
theorem block_eq (X : (⟨2, ![8192, 4096]⟩ : Shape).Idx → EReal) (Wt : (⟨2, ![4096, 11008]⟩ : Shape).Idx → EReal)
    (B : (⟨2, ![1, 11008]⟩ : Shape).Idx → EReal)
    (x0 : FVec Ideal S1024x4096 .bf16) (x1 : FVec Ideal S4096x256 .bf16) (x2 : FVec Ideal S1x256 .f32)
    (i j : Nat) (hi : i ≤ 7) (hj : j ≤ 42)
    (h0 : ∀ (p : Fin 1024) (k : Fin 4096), x0 (ix2 p k) = X (ix2 (⟨i * 1024 + p.val, row_lt i hi p⟩ : Fin 8192) k))
    (h1 : ∀ (k : Fin 4096) (q : Fin 256), x1 (ix2 k q) = Wt (ix2 k (⟨j * 256 + q.val, col_lt j hj q⟩ : Fin 11008)))
    (h2 : ∀ q : Fin 256, x2 (ix2 (0 : Fin 1) q) = B (ix2 (0 : Fin 1) (⟨j * 256 + q.val, col_lt j hj q⟩ : Fin 11008)))
    (p : Fin 1024) (q : Fin 256) :
    k0_pay1 (F := Ideal) x0 x1 x2 (ix2 p q)
      = affine X Wt B (ix2 (⟨i * 1024 + p.val, row_lt i hi p⟩ : Fin 8192) (⟨j * 256 + q.val, col_lt j hj q⟩ : Fin 11008)) := by
  rw [pay_apply, affine_ix2]
  simp only [h0, h1, h2]

end Cert.WQLinear

end
-- ==== Proof.KernelBlocks.lean ====
/-
  From the grid's blocks to the whole array. The grid is 8 row-blocks by 43 column-blocks. At point `(i, j)` the body
  sees rows `i·1024 …` of the row array (all 4096 columns), columns `j·256 …` of the weight array (all 4096 rows) and
  entries `j·256 …` of the one-row bias array, and writes block `(i, j)`, 1024 × 256, of the output. So what each point
  writes back is that block of ONE function of the three arrays as the region finds them, `affine`; the 344 blocks
  tile the 8192 × 11008 output, each index lying in the block of its row divided by 1024 and its column divided by
  256; hence the output array after the region is `affine` of the three arrays.
-/
import proofs.«423215_j66546223284349_3_alg».proof.Proof.Gen.KernelIdeal.Frame
import proofs.«423215_j66546223284349_3_alg».proof.Proof.BlockAffine

set_option maxRecDepth 16384

noncomputable section

namespace Cert.WQLinear

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ)

/-- Every load and the store of the body start at the origin of their buffers. -/
theorem offsets_zero : (![0, 0] : Fin 2 → Nat) = fun _ => 0 := funext fun a => by fin_cases a <;> rfl

/-- The printed index maps, decided over the 344 points: the row block follows the output's row-block index and takes
    every column; the weight block takes every row and follows the output's column-block index; the bias block is in
    its one row at the output's column-block index; the output's block indices stay below 8 and 43; and the points
    run through the blocks row-block by row-block, point `t` writing block `(t / 43, t % 43)`. -/
theorem idx_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = win0_3.index t (1 : Fin 2)
    ∧ win0_2.index t (0 : Fin 2) = 0
    ∧ win0_2.index t (1 : Fin 2) = win0_3.index t (1 : Fin 2)
    ∧ win0_3.index t (0 : Fin 2) ≤ 7 ∧ win0_3.index t (1 : Fin 2) ≤ 42
    ∧ win0_3.index t (0 : Fin 2) = t.val / 43 ∧ win0_3.index t (1 : Fin 2) = t.val % 43 :=
  (by decide +kernel : ∀ t : Fin grid0.N, _)

/-- Every block of the 8 × 43 box is some point's: block `(q0, q1)` is written at point `q0 · 43 + q1`. -/
theorem idx_onto (q0 : Fin 8) (q1 : Fin 43) :
    ∃ t : Fin cfg0.N, win0_3.index t (0 : Fin 2) = q0.val ∧ win0_3.index t (1 : Fin 2) = q1.val := by
  have h0 := q0.isLt
  have h1 := q1.isLt
  have hN : q0.val * 43 + q1.val < cfg0.N := by
    show q0.val * 43 + q1.val < grid0.N
    rw [N_0]; omega
  obtain ⟨-, -, -, -, -, -, -, -, d0, d1⟩ := idx_facts ⟨q0.val * 43 + q1.val, hN⟩
  refine ⟨⟨q0.val * 43 + q1.val, hN⟩, ?_, ?_⟩
  · rw [d0]; show (q0.val * 43 + q1.val) / 43 = q0.val; omega
  · rw [d1]; show (q0.val * 43 + q1.val) % 43 = q1.val; omega

/-- What point `t` writes back is block `t` of `affine` of the row, weight and bias arrays as the region finds them. -/
theorem flushed_eq (c : Dev nD) (t : Fin cfg0.N) :
    (dats m 0 c).flushed 3 t = ((cfg0.win 3).blk t).view.read (Elt Ideal)
      (affine (V m c main_call0_v37) (V m c main_call0_v35) (V m c main_call0_v38)) := by
  show (cfg0.win 3).cut (grid0.coords t) ((dats m 0 c).after 3 t) = _
  rw [after0_3]
  unfold out0_3
  rw [View.canon_unit_zero offsets_zero]
  simp only [View.ld_unit_zero (S := S1024x4096) offsets_zero, View.ld_unit_zero (S := S4096x256) offsets_zero,
    View.ld_unit_zero (S := S1x256) offsets_zero]
  obtain ⟨e0, e1, e2, e3, e4, e5, b0, b1, -, -⟩ := idx_facts t
  refine funext fun (y : S1024x256.Idx) => ?_
  obtain ⟨p, q, rfl⟩ : ∃ (p : Fin 1024) (q : Fin 256), y = ix2 p q := ⟨y 0, y 1, eq_ix2 y⟩
  show k0_pay1 (F := Ideal) (iblk m c 0 t) (iblk m c 1 t) (iblk m c 2 t) (ix2 p q)
      = affine (V m c main_call0_v37) (V m c main_call0_v35) (V m c main_call0_v38) (((cfg0.win 3).blk t).view.emb (ix2 p q))
  -- the output element's place in the array
  have hout : ((cfg0.win 3).blk t).view.emb (ix2 p q)
      = ix2 (⟨win0_3.index t (0 : Fin 2) * 1024 + p.val, row_lt _ b0 p⟩ : Fin 8192)
          (⟨win0_3.index t (1 : Fin 2) * 256 + q.val, col_lt _ b1 q⟩ : Fin 11008) := by
    funext a; apply Fin.ext
    match a with
    | ⟨0, _⟩ => show win0_3.index t (0 : Fin 2) * 1024 + 1 * p.val = win0_3.index t (0 : Fin 2) * 1024 + p.val; omega
    | ⟨1, _⟩ => show win0_3.index t (1 : Fin 2) * 256 + 1 * q.val = win0_3.index t (1 : Fin 2) * 256 + q.val; omega
  -- each input block read where the output's block says
  have hrows : ∀ (p : Fin 1024) (k : Fin 4096), iblk m c 0 t (ix2 p k)
      = V m c main_call0_v37 (ix2 (⟨win0_3.index t (0 : Fin 2) * 1024 + p.val, row_lt _ b0 p⟩ : Fin 8192) k) := by
    intro p k
    show V m c main_call0_v37 (((cfg0.win 0).blk t).view.emb (ix2 p k)) = _
    have h : ((cfg0.win 0).blk t).view.emb (ix2 p k)
        = ix2 (⟨win0_3.index t (0 : Fin 2) * 1024 + p.val, row_lt _ b0 p⟩ : Fin 8192) k := by
      funext a; apply Fin.ext
      match a with
      | ⟨0, _⟩ => show win0_0.index t (0 : Fin 2) * 1024 + 1 * p.val = win0_3.index t (0 : Fin 2) * 1024 + p.val; omega
      | ⟨1, _⟩ => show win0_0.index t (1 : Fin 2) * 4096 + 1 * k.val = k.val; omega
    rw [h]
  have hweights : ∀ (k : Fin 4096) (q : Fin 256), iblk m c 1 t (ix2 k q)
      = V m c main_call0_v35 (ix2 k (⟨win0_3.index t (1 : Fin 2) * 256 + q.val, col_lt _ b1 q⟩ : Fin 11008)) := by
    intro k q
    show V m c main_call0_v35 (((cfg0.win 1).blk t).view.emb (ix2 k q)) = _
    have h : ((cfg0.win 1).blk t).view.emb (ix2 k q)
        = ix2 k (⟨win0_3.index t (1 : Fin 2) * 256 + q.val, col_lt _ b1 q⟩ : Fin 11008) := by
      funext a; apply Fin.ext
      match a with
      | ⟨0, _⟩ => show win0_1.index t (0 : Fin 2) * 4096 + 1 * k.val = k.val; omega
      | ⟨1, _⟩ => show win0_1.index t (1 : Fin 2) * 256 + 1 * q.val = win0_3.index t (1 : Fin 2) * 256 + q.val; omega
    rw [h]
  have hbias : ∀ q : Fin 256, iblk m c 2 t (ix2 (0 : Fin 1) q)
      = V m c main_call0_v38 (ix2 (0 : Fin 1) (⟨win0_3.index t (1 : Fin 2) * 256 + q.val, col_lt _ b1 q⟩ : Fin 11008)) := by
    intro q
    show V m c main_call0_v38 (((cfg0.win 2).blk t).view.emb (ix2 (0 : Fin 1) q)) = _
    have h : ((cfg0.win 2).blk t).view.emb (ix2 (0 : Fin 1) q)
        = ix2 (0 : Fin 1) (⟨win0_3.index t (1 : Fin 2) * 256 + q.val, col_lt _ b1 q⟩ : Fin 11008) := by
      funext a; apply Fin.ext
      match a with
      | ⟨0, _⟩ => show win0_2.index t (0 : Fin 2) * 1 + 1 * 0 = 0; omega
      | ⟨1, _⟩ => show win0_2.index t (1 : Fin 2) * 256 + 1 * q.val = win0_3.index t (1 : Fin 2) * 256 + q.val; omega
    rw [h]
  rw [hout]
  exact block_eq (V m c main_call0_v37) (V m c main_call0_v35) (V m c main_call0_v38)
    (iblk m c 0 t) (iblk m c 1 t) (iblk m c 2 t) (win0_3.index t (0 : Fin 2)) (win0_3.index t (1 : Fin 2)) b0 b1
    hrows hweights hbias p q

/-- An index of the output array is in point `t`'s block iff each coordinate is in the block's range on its axis. -/
theorem mem_blk (t : Fin cfg0.N) (i : S8192x11008.Idx) :
    i ∈ ((cfg0.win 3).blk t).view.set ↔ ∀ a : Fin 2, win0_3.index t a * S1024x256.size a ≤ (i a).val
      ∧ (i a).val < win0_3.index t a * S1024x256.size a + S1024x256.size a := by
  show i ∈ ((View.whole main_call0_v39).slice (win0_3.rect t)).set ↔ _
  rw [View.set_slice_whole, Rect.mem_set_unit]
  exact Iff.rfl

/-- Every index of the output is in some point's block: the one at its row over 1024 and its column over 256. -/
theorem covered (i : S8192x11008.Idx) :
    ∃ t : Fin cfg0.N, (cfg0.win 3).flush t = true ∧ i ∈ ((cfg0.win 3).blk t).view.set := by
  have hi0 : (i 0).val < 8192 := (i 0).isLt
  have hi1 : (i 1).val < 11008 := (i 1).isLt
  obtain ⟨t, q0, q1⟩ := idx_onto ⟨(i 0).val / 1024, by omega⟩ ⟨(i 1).val / 256, by omega⟩
  have q0 : win0_3.index t (0 : Fin 2) = (i 0).val / 1024 := q0
  have q1 : win0_3.index t (1 : Fin 2) = (i 1).val / 256 := q1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 256 ≤ (i 1).val ∧ (i 1).val < win0_3.index t (1 : Fin 2) * 256 + 256; omega

/-- The output array after the region: `affine` of the row, weight and bias arrays as the region finds them. -/
theorem out_eq (c : Dev nD) : (dats m 0 c).arrAt 3 cfg0.N
    = affine (V m c main_call0_v37) (V m c main_call0_v35) (V m c main_call0_v38) :=
  (dats m 0 c).arrAt_eq_of_cover 3 _ (fun t _ => flushed_eq m c t) covered

end Cert.WQLinear

end
-- ==== Proof.HostWeights.lean ====
/-
  The weight matrix the region finds is the reference's. Before the region the kernel program rebuilds the weights
  on the host exactly as the reference does: each packed word is spread over eight positions, shifted right by
  0, 4, …, 28 and masked to its low four bits (for the weights and, separately, for the zero points); the zero
  point of the row's group is subtracted; the difference is converted to a float and multiplied by the group's
  scale; two reshapes group and ungroup the rows. The kernel program then narrows the result to bf16. These are the
  same operations on the same arguments, so the two terms are equal as terms, at any reading of the floats; nothing
  here is computed. The chain is long, so it is compared in three stretches: the two unpackings first, each folded
  back to the reference's stage, then the subtraction, conversion, scaling and reshapes over those two names.
-/
import proofs.«423215_j66546223284349_3_alg».proof.Proof.Gen.KernelIdeal.Frame
import proofs.«423215_j66546223284349_3_alg».proof.Proof.Gen.ReferenceIdeal.Read

noncomputable section

namespace Cert.WQLinear

open Idealize.ShloMosaic Idealize.ShloMosaic.TcCoe Idealize.ShloMosaic.StableHlo
open Idealize.SL Idealize.SL.Sem
open Cert.KernelIdeal Cert.KernelIdeal.Gen

variable {F : FTy → Type} [FloatOps F]
variable (m : (ℓ : Loc nD τ sig) → Buf (Elt F) ℓ)

set_option maxRecDepth 8192 in
set_option maxHeartbeats 2000000 in
/-- The weights' nibbles, unpacked on the host before the region, are the reference's unpacked weights of the same words. -/
theorem unpacked_chain (c : Dev nD) :
    StableHlo.after hostOps0 (fun b => m (c, b)) (Proc.devRef .tc main_call0_v12)
      = Cert.ReferenceIdeal.Read.val_main_v12 (F := F) (m ((c : Thread nD τ).loc main_arg1)) := by
  after_results_simp <;> rfl

set_option maxRecDepth 8192 in
set_option maxHeartbeats 2000000 in
/-- The zero points' nibbles likewise. -/
theorem unpackedZeros_chain (c : Dev nD) :
    StableHlo.after hostOps0 (fun b => m (c, b)) (Proc.devRef .tc main_call0_v25)
      = Cert.ReferenceIdeal.Read.val_main_v25 (F := F) (m ((c : Thread nD τ).loc main_arg2)) := by
  after_results_simp <;> rfl

set_option maxRecDepth 8192 in
set_option maxHeartbeats 2000000 in
/-- The weight array the region finds: the reference's dequantized weights, narrowed to bf16. The two unpacked
    arrays are folded back to the reference's stages first, so only the subtraction, the conversion, the scaling and
    the two reshapes are compared here. -/
theorem weights_chain (c : Dev nD) :
    V m c main_call0_v35
      = truncf .bf16 (Cert.ReferenceIdeal.Read.val_main_v34 (F := F) (m ((c : Thread nD τ).loc main_arg1))
          (m ((c : Thread nD τ).loc main_arg2)) (m ((c : Thread nD τ).loc main_arg3))) bitsLt_bf16_f32 := by
  have h12 := unpacked_chain m c
  have h25 := unpackedZeros_chain m c
  show StableHlo.after hostOps0 (fun b => m (c, b)) (Proc.devRef .tc main_call0_v35) = _
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] at h12 h25 ⊢
  rw [h12, h25]
  rfl

end Cert.WQLinear

end
-- ==== Proof.ReferenceRows.lean ====
/-
  The reference, just before its last reshape: the flattened rows times the dequantized weights by the host's
  `dot_general`, plus the bias broadcast over the rows. Read at an index this is `affine` of three stages of the
  reference, each kept as a name and never opened here: its flattened input rows, its weight matrix, and its
  bias as a one-row array.
-/
import proofs.«423215_j66546223284349_3_alg».proof.Proof.Gen.ReferenceIdeal.Read
import proofs.«423215_j66546223284349_3_alg».proof.Proof.Affine

noncomputable section

namespace Cert.WQLinear

open Idealize.ShloMosaic Idealize.ShloMosaic.ValueIdx Cert.ReferenceIdeal Cert.ReferenceIdeal.Read

/-- At `(r, n)` the reference's sum of product and broadcast bias is `Σ_k rows (r, k) · weights (k, n) + bias (0, n)`:
    the host's contraction is the plain sum over `k` at the ideal instance, and the two broadcasts of the bias read its
    entry `n` whatever the row. -/
theorem ref_rows_eq (x0 : (⟨S8x1024x4096, .f32⟩ : BufTy).Contents (Elt Ideal)) (x1 : (⟨S4096x1376, .i32⟩ : BufTy).Contents (Elt Ideal))
    (x2 : (⟨S32x1376, .i32⟩ : BufTy).Contents (Elt Ideal)) (x3 : (⟨S32x11008, .f32⟩ : BufTy).Contents (Elt Ideal))
    (x4 : (⟨S11008, .f32⟩ : BufTy).Contents (Elt Ideal)) :
    val_main_v39 (F := Ideal) x0 x1 x2 x3 x4
      = affine (val_main_v35 (F := Ideal) x0) (val_main_v34 (F := Ideal) x1 x2 x3) (val_main_v37 (F := Ideal) x4) := by
  funext j
  rw [val_main_v39_apply, val_main_v36_apply, val_main_v38_apply]
  have el : ∀ k : Fin 4096, lidx_main_v36 j k = ix2 (⟨(j 0).val, (j 0).isLt⟩ : Fin 8192) k := fun k =>
    funext fun a => by match a with | ⟨0, _⟩ => rfl | ⟨1, _⟩ => rfl
  have er : ∀ k : Fin 4096, ridx_main_v36 j k = ix2 k (⟨(j 1).val, (j 1).isLt⟩ : Fin 11008) := fun k =>
    funext fun a => by match a with | ⟨0, _⟩ => rfl | ⟨1, _⟩ => rfl
  have eb : idx_main_v38 j = ix2 (0 : Fin 1) (⟨(j 1).val, (j 1).isLt⟩ : Fin 11008) :=
    funext fun a => by match a with | ⟨0, _⟩ => rfl | ⟨1, _⟩ => rfl
  simp only [el, er, eb]
  rfl

end Cert.WQLinear

end
-- ==== Proof.KernelHost.lean ====
/-
  The kernel program outside its one region. Before the region the host flattens the input's leading axes, unpacks
  the quantized weights and their zero points nibble by nibble, subtracts, scales, and reshapes the bias to one row;
  it also narrows the rows and the weights to bf16, which on the extended reals changes nothing. Those are the SAME
  operations, in the same order, on the same arguments, as the reference's first stages, so each of the three arrays
  the region finds is named here by the reference's own stage of the kernel's arguments, and the shared chain of
  operations is never opened: it only has to be the same term. After the region one reshape unflattens the rows.
-/
import proofs.«423215_j66546223284349_3_alg».proof.Proof.KernelBlocks
import proofs.«423215_j66546223284349_3_alg».proof.Proof.HostWeights
import proofs.«423215_j66546223284349_3_alg».proof.Proof.ReferenceRows

set_option maxRecDepth 16384

noncomputable section

namespace Cert.WQLinear

open Idealize.ShloMosaic Idealize.ShloMosaic.TcCoe Idealize.ShloMosaic.ValueIdx Idealize.ShloMosaic.StableHlo
open Idealize.SL Idealize.SL.Sem
open Cert.KernelIdeal Cert.KernelIdeal.Gen

variable (m : (ℓ : Loc nD τ sig) → Buf (Elt Ideal) ℓ) (ρ : Dev nD → PrngReg)

/-! ## The three arrays as the region finds them -/

/-- The row array: the input with its two leading axes flattened (the narrowing to bf16 is the identity). -/
theorem rows_eq (c : Dev nD) :
    (V m c main_call0_v37 : (⟨2, ![8192, 4096]⟩ : Shape).Idx → EReal)
      = Cert.ReferenceIdeal.Read.val_main_v35 (F := Ideal) (m ((c : Thread nD τ).loc main_arg0)) := by
  show StableHlo.after hostOps0 (fun b => m (c, b)) (Proc.devRef .tc main_call0_v37) = _
  after_results
  rfl

/-- The weight array: the reference's dequantized weights of the same packed words, zero points and scales, narrowed
    to bf16 (HostWeights), and on the extended reals the narrowing is the identity. -/
theorem weights_eq (c : Dev nD) :
    (V m c main_call0_v35 : (⟨2, ![4096, 11008]⟩ : Shape).Idx → EReal)
      = Cert.ReferenceIdeal.Read.val_main_v34 (F := Ideal) (m ((c : Thread nD τ).loc main_arg1))
          (m ((c : Thread nD τ).loc main_arg2)) (m ((c : Thread nD τ).loc main_arg3)) := by
  rw [weights_chain m c]
  rfl

/-- A vector reshaped to one row and the same vector broadcast into one row agree: both read entry `n` at `(0, n)`. -/
theorem biasRow_eq (x4 : (⟨1, ![11008]⟩ : Shape).Idx → EReal) :
    shapeCast (⟨2, ![1, 11008]⟩ : Shape) x4 Cert.KernelIdeal.Gen.shapeCasts_S11008_S1x11008
      = Cert.ReferenceIdeal.Read.val_main_v37 (F := Ideal) x4 := by
  funext i
  obtain ⟨u, n, rfl⟩ : ∃ (u : Fin 1) (n : Fin 11008), i = ix2 u n := ⟨i 0, i 1, eq_ix2 i⟩
  rw [Cert.ReferenceIdeal.Read.val_main_v37_apply]
  refine (shapeCast_a_1a_apply x4 _ u n).trans ?_
  exact congrArg x4 (funext fun a => by match a with | ⟨0, _⟩ => rfl)

/-- The bias array: the bias as one row. -/
theorem bias_eq (c : Dev nD) :
    (V m c main_call0_v38 : (⟨2, ![1, 11008]⟩ : Shape).Idx → EReal)
      = Cert.ReferenceIdeal.Read.val_main_v37 (F := Ideal) (m ((c : Thread nD τ).loc main_arg4)) := by
  refine Eq.trans ?_ (biasRow_eq (m ((c : Thread nD τ).loc main_arg4)))
  show StableHlo.after hostOps0 (fun b => m (c, b)) (Proc.devRef .tc main_call0_v38) = _
  after_results
  rfl

/-! ## The result -/

/-- The output array after the region is the reference's sum of product and bias, of the kernel's own arguments. -/
theorem out_rows_eq (c : Dev nD) :
    ((dats m 0 c).arrAt 3 cfg0.N : (⟨2, ![8192, 11008]⟩ : Shape).Idx → EReal)
      = Cert.ReferenceIdeal.Read.val_main_v39 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  rw [ref_rows_eq, ← rows_eq m c, ← weights_eq m c, ← bias_eq m c]
  exact out_eq m c

/-- The program's result: the one reshape after the region, applied to the output array; the reference ends with
    the same reshape of the same rows. -/
theorem result_eq (c : Dev nD) :
    Pipeline.afterTail₀ cfgs (dats m) 0 (V0 m) [hostOps1] c main_v0
      = Cert.ReferenceIdeal.Read.val_main_v40 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  unfold Pipeline.afterTail₀ Cert.ReferenceIdeal.Read.val_main_v40
  rw [← out_rows_eq m c]
  show StableHlo.after hostOps1 _ (Proc.devRef .tc main_v0) = _
  after_results
  rw [Pipeline.withArrays_arr spec0 launch0.win.arr_inj c _ _ 3]
  rfl

/-- Every weakly fair execution of the kernel program ends with its result at the reference's last stage of the
    kernel's own arguments, and the arguments as launched. -/
theorem run : θ_run defs (onTc (τ := τ) (main (F := Ideal))) ⟨m, fun _ => 0, ρ⟩ fun r => ∀ c : Dev nD,
      r.2.mem ((c : Thread nD τ).loc main_v0)
        = Cert.ReferenceIdeal.Read.val_main_v40 (F := Ideal) (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨((h c).2 main_v0 (Pipeline.mem_restRefs_of main_v0 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.WQLinear

end
-- ==== Proof.lean ====
/-
  A linear layer with 4-bit quantized weights, against its plain reference, over the extended reals.

  Both programs first rebuild the 4096 × 11008 weight matrix from packed words: eight nibbles per word, minus the
  group's zero point, times the group's scale. Both then compute, for each of the 8192 flattened input rows,
  `out (r, n) = Σ_{k < 4096} x (r, k) · w (k, n) + bias (n)`, and unflatten the rows. The kernel differs only in how:
  it narrows `x` and `w` to bf16 on the way in, which on the extended reals is the identity, and it tiles the output into
  8 × 43 blocks of 1024 × 256, each block computed from whole rows of `x` and whole columns of `w` on the matrix unit,
  so the contracted axis is never split and each entry is the same single sum the reference's contraction forms.
  No law of the extended reals that needs finite entries is used, and the precondition is never opened.

  The pieces: what a grid point stores, at an index (BlockProduct); that it is a block of one function `affine` of the
  arrays (Affine, BlockAffine); the blocks tile the output, so the output array is `affine` (KernelBlocks); the
  arrays the region finds, and the reshape after it, are the reference's own stages of the kernel's arguments
  (KernelHost); the reference's product plus bias is `affine` of those stages (ReferenceRows). Here the two runs are
  put side by side. The ideal pass rewrote nothing, so the kernel's idealization is its own text and that claim is
  trivially true.
-/
import proofs.«423215_j66546223284349_3_alg».proof.Defs
import proofs.«423215_j66546223284349_3_alg».proof.Proof.Gen.Kernel
import proofs.«423215_j66546223284349_3_alg».proof.Proof.Gen.Kernel.Skeleton
import proofs.«423215_j66546223284349_3_alg».proof.Proof.Gen.Kernel.Launch
import proofs.«423215_j66546223284349_3_alg».proof.Proof.Gen.Kernel.Points
import proofs.«423215_j66546223284349_3_alg».proof.Proof.Gen.Kernel.Frame
import proofs.«423215_j66546223284349_3_alg».proof.Proof.Gen.KernelIdeal
import proofs.«423215_j66546223284349_3_alg».proof.Proof.Gen.KernelIdeal.Skeleton
import proofs.«423215_j66546223284349_3_alg».proof.Proof.Gen.KernelIdeal.Launch
import proofs.«423215_j66546223284349_3_alg».proof.Proof.Gen.KernelIdeal.Points
import proofs.«423215_j66546223284349_3_alg».proof.Proof.Gen.KernelIdeal.Frame
import proofs.«423215_j66546223284349_3_alg».proof.Proof.Gen.ReferenceIdeal
import proofs.«423215_j66546223284349_3_alg».proof.Proof.Gen.Pre_finite_inputs
import proofs.«423215_j66546223284349_3_alg».proof.Proof.Gen.ReferenceIdeal.Run
import proofs.«423215_j66546223284349_3_alg».proof.Proof.Gen.ReferenceIdeal.Read
import proofs.«423215_j66546223284349_3_alg».proof.Proof.KernelHost
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments, both programs end with the reference's last stage of those
    arguments: the kernel by its blocks and its shared host operations, the reference by its own run. -/
theorem algebraic : Cert.algebraic_KernelIdeal_ReferenceIdeal := by
  intro m ρ m' ρ' _ hagree
  refine ⟨_, Cert.WQLinear.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, (hagree c).1, (hagree c).2.1, (hagree c).2.2.1, (hagree c).2.2.2.1,
    (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
